-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x258x258 : Shape := ⟨3, ![16, 258, 258]⟩
abbrev S128x1x3x3 : Shape := ⟨4, ![128, 1, 3, 3]⟩
abbrev S9x128 : Shape := ⟨2, ![9, 128]⟩
abbrev S_ : Shape := ⟨0, ![]⟩

class Facts : Prop where
  bcast_S_S16x258x258 : S_.BroadcastsInDim S16x258x258 (![] : Fin 0 → Fin S16x258x258.rank)
  reducesTo_S16x258x258_S_d0_1_2 : S16x258x258.ReducesTo [0, 1, 2] S_
  h_S_ : 0 < S_.numel
  bcast_S_S128x1x3x3 : S_.BroadcastsInDim S128x1x3x3 (![] : Fin 0 → Fin S128x1x3x3.rank)
  reducesTo_S128x1x3x3_S_d0_1_2_3 : S128x1x3x3.ReducesTo [0, 1, 2, 3] S_
  bcast_S_S9x128 : S_.BroadcastsInDim S9x128 (![] : Fin 0 → Fin S9x128.rank)
  reducesTo_S9x128_S_d0_1 : S9x128.ReducesTo [0, 1] S_

variable [Facts]

def fn {F : FTy → Type} [FloatOps F] (main_arg0 : FVec F S16x258x258 .f32) (main_arg1 : FVec F S128x1x3x3 .f32) (main_arg2 : FVec F S9x128 .f32) : IVec S_ 1 :=
  let main_v0 : FVec F S16x258x258 .f32 := Host.absf main_arg0
  let main_cst : FVec F S_ .f32 := constant S_ .f32 0x7F800000#32
  let main_v1 : FVec F S16x258x258 .f32 := broadcastInDim S16x258x258 ![] bcast_S_S16x258x258 main_cst
  let main_v2 : IVec S16x258x258 1 := cmpf .olt main_v0 main_v1
  let main_c : IVec S_ 1 := constantI S_ 1 1#1
  let main_v3 : IVec S_ 1 := (fun x v => Host.reduce IntOp.andi x v reducesTo_S16x258x258_S_d0_1_2 h_S_) main_v2 main_c
  let main_v4 : FVec F S128x1x3x3 .f32 := Host.absf main_arg1
  let main_cst_0 : FVec F S_ .f32 := constant S_ .f32 0x7F800000#32
  let main_v5 : FVec F S128x1x3x3 .f32 := broadcastInDim S128x1x3x3 ![] bcast_S_S128x1x3x3 main_cst_0
  let main_v6 : IVec S128x1x3x3 1 := cmpf .olt main_v4 main_v5
  let main_c_1 : IVec S_ 1 := constantI S_ 1 1#1
  let main_v7 : IVec S_ 1 := (fun x v => Host.reduce IntOp.andi x v reducesTo_S128x1x3x3_S_d0_1_2_3 h_S_) main_v6 main_c_1
  let main_v8 : IVec S_ 1 := andi main_v3 main_v7
  let main_v9 : FVec F S9x128 .f32 := Host.absf main_arg2
  let main_cst_2 : FVec F S_ .f32 := constant S_ .f32 0x7F800000#32
  let main_v10 : FVec F S9x128 .f32 := broadcastInDim S9x128 ![] bcast_S_S9x128 main_cst_2
  let main_v11 : IVec S9x128 1 := cmpf .olt main_v9 main_v10
  let main_c_3 : IVec S_ 1 := constantI S_ 1 1#1
  let main_v12 : IVec S_ 1 := (fun x v => Host.reduce IntOp.andi x v reducesTo_S9x128_S_d0_1 h_S_) main_v11 main_c_3
  let main_v13 : IVec S_ 1 := andi main_v8 main_v12
  main_v13
-- ==== Kernel.lean ====
abbrev S16x258x258 : Shape := ⟨3, ![16, 258, 258]⟩
abbrev S128x1x3x3 : Shape := ⟨4, ![128, 1, 3, 3]⟩
abbrev S9x128 : Shape := ⟨2, ![9, 128]⟩
abbrev S1x128 : Shape := ⟨2, ![1, 128]⟩
abbrev S128 : Shape := ⟨1, ![128]⟩
abbrev S_ : Shape := ⟨0, ![]⟩
abbrev S256x256x16x128 : Shape := ⟨4, ![256, 256, 16, 128]⟩
abbrev S8x258x258 : Shape := ⟨3, ![8, 258, 258]⟩
abbrev S8x256x8x128 : Shape := ⟨4, ![8, 256, 8, 128]⟩
abbrev S8x10x258 : Shape := ⟨3, ![8, 10, 258]⟩
abbrev S8x8x256 : Shape := ⟨3, ![8, 8, 256]⟩
abbrev S8x8x256x1 : Shape := ⟨4, ![8, 8, 256, 1]⟩
abbrev S8x8x256x9 : Shape := ⟨4, ![8, 8, 256, 9]⟩
abbrev S16384x9 : Shape := ⟨2, ![16384, 9]⟩
abbrev S16384x128 : Shape := ⟨2, ![16384, 128]⟩
abbrev S8x8x256x128 : Shape := ⟨4, ![8, 8, 256, 128]⟩
abbrev S1x1x1x128 : Shape := ⟨4, ![1, 1, 1, 128]⟩
abbrev S16x256x256x128 : Shape := ⟨4, ![16, 256, 256, 128]⟩

abbrev nBuf : Space → Nat
  | .hbm => 12
  | .vmem => 5
  | .smem => 0
  | _ => 0

abbrev bufTy : (tb : Table) → Fin (tcTables nBuf tb) → BufTy
  | .hbm, ⟨0, _⟩ => ⟨S16x258x258, .f32⟩
  | .hbm, ⟨1, _⟩ => ⟨S128x1x3x3, .f32⟩
  | .hbm, ⟨2, _⟩ => ⟨S9x128, .f32⟩
  | .hbm, ⟨3, _⟩ => ⟨S9x128, .f32⟩
  | .hbm, ⟨4, _⟩ => ⟨S1x128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S256x256x16x128, .f32⟩
  | .hbm, ⟨11, _⟩ => ⟨S16x256x256x128, .f32⟩
  | .local _ .vmem, ⟨0, _⟩ => ⟨S8x258x258, .f32⟩
  | .local _ .vmem, ⟨1, _⟩ => ⟨S9x128, .f32⟩
  | .local _ .vmem, ⟨2, _⟩ => ⟨S1x128, .f32⟩
  | .local _ .vmem, ⟨3, _⟩ => ⟨S8x256x8x128, .f32⟩
  | .local _ .vmem, ⟨4, _⟩ => ⟨S8x256x8x128, .f32⟩
  | _, _ => ⟨S16x258x258, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  v0
def k0_off1 (i : grid0.Coords) : Fin 3 → Nat :=
  let c0 : Index := 0#32
  let arg1 : BitVec 32 := BitVec.ofNat 32 (i 1).val
  let c8_i32 : BitVec 32 := 8#32
  let v0 : BitVec 32 := Scalar.muli arg1 c8_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 1 → Memref sig .tc .vmem S8x258x258 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S9x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x256x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S128x1x3x3_S9x128 : S128x1x3x3.ShapeCasts S9x128
  slices_S9x128_S1x128_0_0 : S9x128.Slices ![0, 0] S1x128
  shapeCasts_S1x128_S128 : S1x128.ShapeCasts S128
  bcast_S_S128 : S_.BroadcastsInDim S128 (![] : Fin 0 → Fin S128.rank)
  shapeCasts_S128_S1x128 : S128.ShapeCasts S1x128
  h_S8x10x258 : 0 < S8x10x258.numel
  slices_S8x10x258_o0_0_0_S8x8x256 : S8x10x258.Slices ![0, 0, 0] S8x8x256
  slices_S8x10x258_o0_0_1_S8x8x256 : S8x10x258.Slices ![0, 0, 1] S8x8x256
  slices_S8x10x258_o0_0_2_S8x8x256 : S8x10x258.Slices ![0, 0, 2] S8x8x256
  slices_S8x10x258_o0_1_0_S8x8x256 : S8x10x258.Slices ![0, 1, 0] S8x8x256
  slices_S8x10x258_o0_1_1_S8x8x256 : S8x10x258.Slices ![0, 1, 1] S8x8x256
  slices_S8x10x258_o0_1_2_S8x8x256 : S8x10x258.Slices ![0, 1, 2] S8x8x256
  slices_S8x10x258_o0_2_0_S8x8x256 : S8x10x258.Slices ![0, 2, 0] S8x8x256
  slices_S8x10x258_o0_2_1_S8x8x256 : S8x10x258.Slices ![0, 2, 1] S8x8x256
  slices_S8x10x258_o0_2_2_S8x8x256 : S8x10x258.Slices ![0, 2, 2] S8x8x256
  shapeCasts_S8x8x256_S8x8x256x1 : S8x8x256.ShapeCasts S8x8x256x1
  concatenates_S8x8x256x1_S8x8x256x1_S8x8x256x1_S8x8x256x1_S8x8x256x1_S8x8x256x1_S8x8x256x1_S8x8x256x1_S8x8x256x1_S8x8x256x9_d3 : Shape.Concatenates [S8x8x256x1, S8x8x256x1, S8x8x256x1, S8x8x256x1, S8x8x256x1, S8x8x256x1, S8x8x256x1, S8x8x256x1, S8x8x256x1] S8x8x256x9 3
  shapeCasts_S8x8x256x9_S16384x9 : S8x8x256x9.ShapeCasts S16384x9
  bitsLt_bf16_f32 : FTy.bits .bf16 < FTy.bits .f32
  inb_S9x128_S9x128_0_0 : ∀ a, (![0, 0] : Fin 2 → Nat) a + S9x128.size a ≤ S9x128.size a
  h_S9x128 : 0 < S9x128.numel
  shapeCasts_S9x128_S9x128 : S9x128.ShapeCasts S9x128
  shapeCasts_S16384x128_S8x8x256x128 : S16384x128.ShapeCasts S8x8x256x128
  inb_S1x128_S1x128_0_0 : ∀ a, (![0, 0] : Fin 2 → Nat) a + S1x128.size a ≤ S1x128.size a
  h_S1x128 : 0 < S1x128.numel
  shapeCasts_S128_S1x1x1x128 : S128.ShapeCasts S1x1x1x128
  broadcasts_S1x1x1x128_S8x8x256x128 : S1x1x1x128.Broadcasts S8x8x256x128
  transposes_S8x8x256x128_p1_2_0_3_S8x256x8x128 : S8x8x256x128.Transposes [1, 2, 0, 3] S8x256x8x128
  inb_S8x256x8x128_S8x256x8x128_0_0_0_0 : ∀ a, (![0, 0, 0, 0] : Fin 4 → Nat) a + S8x256x8x128.size a ≤ S8x256x8x128.size a
  h_S8x256x8x128 : 0 < S8x256x8x128.numel
  shapeCasts_S256x256x16x128_S16x256x256x128 : S256x256x16x128.ShapeCasts S16x256x256x128
  dot_S16384x9_S9x128_S16384x128_1_0_0_1_n_n_wf : DotDims.WF S16384x9 S9x128 S16384x128 [1] [0] [0] [1] [] []
  hrank0 : 0 < grid0.rank
  k0_mult1_dvd : ∀ i : grid0.Coords, 8 ∣ (k0_mult1 i).toNat
  k0_off1_inb : ∀ i : grid0.Coords, ∀ a, (k0_off1 i) a + S8x10x258.size a ≤ S8x258x258.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x258x258.size a ≤ S16x258x258.size a
  hwx0_0 : ∀ i : grid0.Coords, EltTy.bits .f32 = 32 ∨ (Rect.block (s := S16x258x258) S8x258x258.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128.size a ≤ S9x128.size a
  hwx0_1 : ∀ i : grid0.Coords, EltTy.bits .f32 = 32 ∨ (Rect.block (s := S9x128) S9x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x8x128.size a ≤ S256x256x16x128.size a
  hwx0_3 : ∀ i : grid0.Coords, EltTy.bits .f32 = 32 ∨ (Rect.block (s := S256x256x16x128) S8x256x8x128.size (cc0_transform_3 i) (hinb0_3 i)).WholeWords (EltTy.packing .f32)

variable [Facts₀]

def dot_S16384x9_S9x128_S16384x128_1_0_0_1_n_n : DotDims S16384x9 S9x128 S16384x128 where
  lhsContracting := [1]
  rhsContracting := [0]
  lhsNonContracting := [0]
  rhsNonContracting := [1]
  lhsBatch := []
  rhsBatch := []
  wf := dot_S16384x9_S9x128_S16384x128_1_0_0_1_n_n_wf

abbrev win0_0 : Pipeline.Window sig grid0 :=
  Pipeline.Window.ofSpec (Memref.whole main_arg0) S8x258x258.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S9x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8x256x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x258x258 : Shape := ⟨3, ![16, 258, 258]⟩
abbrev S128x1x3x3 : Shape := ⟨4, ![128, 1, 3, 3]⟩
abbrev S9x128 : Shape := ⟨2, ![9, 128]⟩
abbrev S16x256x256 : Shape := ⟨3, ![16, 256, 256]⟩
abbrev S16x256x256x1 : Shape := ⟨4, ![16, 256, 256, 1]⟩
abbrev S16x256x256x9 : Shape := ⟨4, ![16, 256, 256, 9]⟩
abbrev S256x256x16x9 : Shape := ⟨4, ![256, 256, 16, 9]⟩
abbrev S1048576x9 : Shape := ⟨2, ![1048576, 9]⟩
abbrev S1x128 : Shape := ⟨2, ![1, 128]⟩
abbrev S128 : Shape := ⟨1, ![128]⟩
abbrev S_ : Shape := ⟨0, ![]⟩
abbrev S1048576x128 : Shape := ⟨2, ![1048576, 128]⟩
abbrev S16x256x256x128 : Shape := ⟨4, ![16, 256, 256, 128]⟩

abbrev nBuf : Space → Nat
  | .hbm => 48
  | .vmem => 0
  | .smem => 0
  | _ => 0

abbrev bufTy : (tb : Table) → Fin (tcTables nBuf tb) → BufTy
  | .hbm, ⟨0, _⟩ => ⟨S16x258x258, .f32⟩
  | .hbm, ⟨1, _⟩ => ⟨S128x1x3x3, .f32⟩
  | .hbm, ⟨2, _⟩ => ⟨S9x128, .f32⟩
  | .hbm, ⟨3, _⟩ => ⟨S9x128, .f32⟩
  | .hbm, ⟨4, _⟩ => ⟨S16x256x256, .f32⟩
  | .hbm, ⟨5, _⟩ => ⟨S16x256x256, .f32⟩
  | .hbm, ⟨6, _⟩ => ⟨S16x256x256, .f32⟩
  | .hbm, ⟨7, _⟩ => ⟨S16x256x256, .f32⟩
  | .hbm, ⟨8, _⟩ => ⟨S16x256x256, .f32⟩
  | .hbm, ⟨9, _⟩ => ⟨S16x256x256, .f32⟩
  | .hbm, ⟨10, _⟩ => ⟨S16x256x256, .f32⟩
  | .hbm, ⟨11, _⟩ => ⟨S16x256x256, .f32⟩
  | .hbm, ⟨12, _⟩ => ⟨S16x256x256, .f32⟩
  | .hbm, ⟨13, _⟩ => ⟨S16x256x256x1, .f32⟩
  | .hbm, ⟨14, _⟩ => ⟨S16x256x256x1, .f32⟩
  | .hbm, ⟨15, _⟩ => ⟨S16x256x256x1, .f32⟩
  | .hbm, ⟨16, _⟩ => ⟨S16x256x256x1, .f32⟩
  | .hbm, ⟨17, _⟩ => ⟨S16x256x256x1, .f32⟩
  | .hbm, ⟨18, _⟩ => ⟨S16x256x256x1, .f32⟩
  | .hbm, ⟨19, _⟩ => ⟨S16x256x256x1, .f32⟩
  | .hbm, ⟨20, _⟩ => ⟨S16x256x256x1, .f32⟩
  | .hbm, ⟨21, _⟩ => ⟨S16x256x256x1, .f32⟩
  | .hbm, ⟨22, _⟩ => ⟨S16x256x256x9, .f32⟩
  | .hbm, ⟨23, _⟩ => ⟨S256x256x16x9, .f32⟩
  | .hbm, ⟨24, _⟩ => ⟨S1048576x9, .f32⟩
  | .hbm, ⟨25, _⟩ => ⟨S1x128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S1048576x9, .f32⟩
  | .hbm, ⟨32, _⟩ => ⟨S1048576x9, .f32⟩
  | .hbm, ⟨33, _⟩ => ⟨S1048576x128, .f32⟩
  | .hbm, ⟨34, _⟩ => ⟨S1x128, .f32⟩
  | .hbm, ⟨35, _⟩ => ⟨S1048576x128, .f32⟩
  | .hbm, ⟨36, _⟩ => ⟨S1048576x128, .f32⟩
  | .hbm, ⟨37, _⟩ => ⟨S_, .f32⟩
  | .hbm, ⟨38, _⟩ => ⟨S1048576x128, .f32⟩
  | .hbm, ⟨39, _⟩ => ⟨S1048576x128, .f32⟩
  | .hbm, ⟨40, _⟩ => ⟨S_, .f32⟩
  | .hbm, ⟨41, _⟩ => ⟨S1048576x128, .f32⟩
  | .hbm, ⟨42, _⟩ => ⟨S1048576x128, .i1⟩
  | .hbm, ⟨43, _⟩ => ⟨S_, .f32⟩
  | .hbm, ⟨44, _⟩ => ⟨S_, .f32⟩
  | .hbm, ⟨45, _⟩ => ⟨S1048576x128, .f32⟩
  | .hbm, ⟨46, _⟩ => ⟨S1048576x128, .f32⟩
  | .hbm, ⟨47, _⟩ => ⟨S16x256x256x128, .f32⟩
  | _, _ => ⟨S16x258x258, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]

class Facts₀ : Prop where
  shapeCasts_S128x1x3x3_S9x128 : S128x1x3x3.ShapeCasts S9x128
  slices_S16x258x258_S16x256x256_0_0_0 : S16x258x258.Slices ![0, 0, 0] S16x256x256
  slices_S16x258x258_S16x256x256_0_0_1 : S16x258x258.Slices ![0, 0, 1] S16x256x256
  slices_S16x258x258_S16x256x256_0_0_2 : S16x258x258.Slices ![0, 0, 2] S16x256x256
  slices_S16x258x258_S16x256x256_0_1_0 : S16x258x258.Slices ![0, 1, 0] S16x256x256
  slices_S16x258x258_S16x256x256_0_1_1 : S16x258x258.Slices ![0, 1, 1] S16x256x256
  slices_S16x258x258_S16x256x256_0_1_2 : S16x258x258.Slices ![0, 1, 2] S16x256x256
  slices_S16x258x258_S16x256x256_0_2_0 : S16x258x258.Slices ![0, 2, 0] S16x256x256
  slices_S16x258x258_S16x256x256_0_2_1 : S16x258x258.Slices ![0, 2, 1] S16x256x256
  slices_S16x258x258_S16x256x256_0_2_2 : S16x258x258.Slices ![0, 2, 2] S16x256x256
  bcast_S16x256x256_S16x256x256x1_0_1_2 : S16x256x256.BroadcastsInDim S16x256x256x1 (![0, 1, 2] : Fin 3 → Fin S16x256x256x1.rank)
  concatenates_S16x256x256x1_S16x256x256x1_S16x256x256x1_S16x256x256x1_S16x256x256x1_S16x256x256x1_S16x256x256x1_S16x256x256x1_S16x256x256x1_S16x256x256x9_d3 : Shape.Concatenates [S16x256x256x1, S16x256x256x1, S16x256x256x1, S16x256x256x1, S16x256x256x1, S16x256x256x1, S16x256x256x1, S16x256x256x1, S16x256x256x1] S16x256x256x9 3
  transposes_S16x256x256x9_S256x256x16x9_1_2_0_3 : S16x256x256x9.Transposes [1, 2, 0, 3] S256x256x16x9
  shapeCasts_S256x256x16x9_S1048576x9 : S256x256x16x9.ShapeCasts S1048576x9
  slices_S9x128_S1x128_0_0 : S9x128.Slices ![0, 0] S1x128
  shapeCasts_S1x128_S128 : S1x128.ShapeCasts S128
  bcast_S_S128 : S_.BroadcastsInDim S128 (![] : Fin 0 → Fin S128.rank)
  bcast_S_S1048576x9 : S_.BroadcastsInDim S1048576x9 (![] : Fin 0 → Fin S1048576x9.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  shapeCasts_S1048576x128_S16x256x256x128 : S1048576x128.ShapeCasts S16x256x256x128
  dot_S1048576x9_S9x128_S1048576x128_1_0_0_1_n_n_wf : DotDims.WF S1048576x9 S9x128 S1048576x128 [1] [0] [0] [1] [] []

variable [Facts₀]

def dot_S1048576x9_S9x128_S1048576x128_1_0_0_1_n_n : DotDims S1048576x9 S9x128 S1048576x128 where
  lhsContracting := [1]
  rhsContracting := [0]
  lhsNonContracting := [0]
  rhsNonContracting := [1]
  lhsBatch := []
  rhsBatch := []
  wf := dot_S1048576x9_S9x128_S1048576x128_1_0_0_1_n_n_wf

class Facts : Prop extends Facts₀ where

variable [Facts]
-- ==== Proof.Spec.lean ====
/-
  The value both programs compute, as one function of the image stack, the unfolded weights and the threshold row.

  Row `n` of the unfolded patch matrix is the 3 × 3 window at position `(n / 4096, n / 16 % 256)` of image `n % 16`
  (positions vary slowest, images fastest); its tap `k` is the image entry at `(i + k / 3, j + k % 3)`. The result
  row is the nine taps against column `f` of the weights, plus the threshold, clamped above at one; the returned array
  is those `1048576 × 128` rows read row-major as `16 × 256 × 256 × 128`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Spec

open Idealize.ShloMosaic Idealize.ShloMosaic.ValueIdx

abbrev Img : Shape := ⟨3, ![16, 258, 258]⟩
abbrev Wts : Shape := ⟨2, ![9, 128]⟩
abbrev Thr : Shape := ⟨1, ![128]⟩
abbrev Rows : Shape := ⟨2, ![1048576, 128]⟩
abbrev Out : Shape := ⟨4, ![16, 256, 256, 128]⟩

/-- The image entry under tap `k` of patch row `n`. -/
def tap (n : Fin 1048576) (k : Fin 9) : Img.Idx :=
  ix3 (⟨n.val % 16, by omega⟩ : Fin 16)
    (⟨n.val / 4096 + k.val / 3, by have := n.isLt; have := k.isLt; omega⟩ : Fin 258)
    (⟨n.val / 16 % 256 + k.val % 3, by have := k.isLt; omega⟩ : Fin 258)

/-- The upper clamp, the word of `1.0`. -/
abbrev one : EReal := Ideal.ofBits .f32 0x3F800000#32

/-- Entry `(n, f)` of the clamped, thresholded product of the patch matrix with the weights. -/
def conv (img : FVec Ideal Img .f32) (w : FVec Ideal Wts .f32) (th : FVec Ideal Thr .f32) (n : Fin 1048576) (f : Fin 128) : EReal :=
  min ((∑ k : Fin 9, img (tap n k) * w (ix2 k f)) + th (ix1 f)) one

/-- The patch row an index of the returned array falls in. -/
def rowOf (i : Out.Idx) : Fin 1048576 :=
  ⟨((i 0).val * 256 + (i 1).val) * 256 + (i 2).val, by
    have h0 : (i 0).val < 16 := (i 0).isLt
    have h1 : (i 1).val < 256 := (i 1).isLt
    have h2 : (i 2).val < 256 := (i 2).isLt
    omega⟩

/-- The returned array. -/
def result (img : FVec Ideal Img .f32) (w : FVec Ideal Wts .f32) (th : FVec Ideal Thr .f32) : FVec Ideal Out .f32 :=
  fun i => conv img w th (rowOf i) (⟨(i 3).val, (i 3).isLt⟩ : Fin 128)

/-! ## Scalar laws on the extended reals -/

/-- Selecting `x` where `x < c` and `c` elsewhere is the minimum. -/
theorem select_lt_eq_min (x c : EReal) : Scalar.select (Ideal.cmp .olt x c) x c = min x c := by
  unfold Ideal.cmp Scalar.select
  by_cases h : x < c
  · simp [h, min_eq_left h.le]
  · simp [h, min_eq_right (not_lt.mp h)]

/-- Subtracting the zero word changes nothing. -/
theorem sub_zeroWord (x : EReal) : x - Ideal.ofBits .f32 0x00000000#32 = x := by
  rw [Ideal.ofBits_zero_f32, sub_zero]

/-- Adding the zero word changes nothing. -/
theorem add_zeroWord (x : EReal) : x + Ideal.ofBits .f32 0x00000000#32 = x := by
  rw [Ideal.ofBits_zero_f32, add_zero]

/-! ## Nine unit-wide pieces joined along the last axis -/

/-- One of nine by its position. -/
def nth9 {β : Type} (x0 x1 x2 x3 x4 x5 x6 x7 x8 : β) : Fin 9 → β
  | ⟨0, _⟩ => x0 | ⟨1, _⟩ => x1 | ⟨2, _⟩ => x2 | ⟨3, _⟩ => x3 | ⟨4, _⟩ => x4
  | ⟨5, _⟩ => x5 | ⟨6, _⟩ => x6 | ⟨7, _⟩ => x7 | ⟨8, _⟩ => x8

/-- Nine `[a, b, c, 1]` pieces joined along the last axis, read at `(p, q, r, k)`: piece `k` at `(p, q, r, 0)`. -/
theorem concat9_apply {α : Type} {a b c : Nat}
    (x0 x1 x2 x3 x4 x5 x6 x7 x8 : (⟨4, ![a, b, c, 1]⟩ : Shape).Idx → α)
    (h : Shape.Concatenates ([(⟨(⟨4, ![a, b, c, 1]⟩ : Shape), x0⟩ : (s : Shape) × (s.Idx → α)), ⟨_, x1⟩, ⟨_, x2⟩, ⟨_, x3⟩, ⟨_, x4⟩, ⟨_, x5⟩, ⟨_, x6⟩, ⟨_, x7⟩, ⟨_, x8⟩].map (·.1))
      (⟨4, ![a, b, c, 9]⟩ : Shape) 3)
    (p : Fin a) (q : Fin b) (r : Fin c) (k : Fin 9) :
    concatenate (⟨4, ![a, b, c, 9]⟩ : Shape) 3 [⟨_, x0⟩, ⟨_, x1⟩, ⟨_, x2⟩, ⟨_, x3⟩, ⟨_, x4⟩, ⟨_, x5⟩, ⟨_, x6⟩, ⟨_, x7⟩, ⟨_, x8⟩] h (ix4 p q r k)
      = nth9 x0 x1 x2 x3 x4 x5 x6 x7 x8 k (ix4 p q r (0 : Fin 1)) := by
  have hi : ∀ b' : Fin 4, b'.cast (rfl : (4 : Nat) = 4) ≠ (3 : Fin 4) →
      ((ix4 p q r (0 : Fin 1) : (⟨4, ![a, b, c, 1]⟩ : Shape).Idx) b').val = ((ix4 p q r k : (⟨4, ![a, b, c, 9]⟩ : Shape).Idx) (b'.cast rfl)).val := by
    intro b' hb
    match b', hb with
    | ⟨0, _⟩, _ => rfl
    | ⟨1, _⟩, _ => rfl
    | ⟨2, _⟩, _ => rfl
    | ⟨3, _⟩, hb => exact absurd rfl hb
  match k with
  | ⟨0, _⟩ => exact concatenate_apply_piece 3 _ h _ 0 (by simp) _ x0 rfl rfl 0 rfl _ hi rfl
  | ⟨1, _⟩ => exact concatenate_apply_piece 3 _ h _ 1 (by simp) _ x1 rfl rfl 1 rfl _ hi rfl
  | ⟨2, _⟩ => exact concatenate_apply_piece 3 _ h _ 2 (by simp) _ x2 rfl rfl 2 rfl _ hi rfl
  | ⟨3, _⟩ => exact concatenate_apply_piece 3 _ h _ 3 (by simp) _ x3 rfl rfl 3 rfl _ hi rfl
  | ⟨4, _⟩ => exact concatenate_apply_piece 3 _ h _ 4 (by simp) _ x4 rfl rfl 4 rfl _ hi rfl
  | ⟨5, _⟩ => exact concatenate_apply_piece 3 _ h _ 5 (by simp) _ x5 rfl rfl 5 rfl _ hi rfl
  | ⟨6, _⟩ => exact concatenate_apply_piece 3 _ h _ 6 (by simp) _ x6 rfl rfl 6 rfl _ hi rfl
  | ⟨7, _⟩ => exact concatenate_apply_piece 3 _ h _ 7 (by simp) _ x7 rfl rfl 7 rfl _ hi rfl
  | ⟨8, _⟩ => exact concatenate_apply_piece 3 _ h _ 8 (by simp) _ x8 rfl rfl 8 rfl _ hi rfl

end Cert.Spec

end
-- ==== Proof.RefValue.lean ====
/-
  The reference's result is the specified array.

  The reference slices the image stack nine times (one slice per tap), stacks the slices on a new last axis, moves the
  image axis behind the two position axes and flattens: row `n`, column `k` of the resulting patch matrix is the image
  entry under tap `k` of patch row `n`. It subtracts a zero, multiplies by the weights, adds the threshold and a
  zero, clamps with a compare-and-select (the minimum, on the extended reals) and reads the rows as the result array.
-/
import proofs.«124692_j26104811225508_1_alg».proof.Proof.Gen.ReferenceIdeal.Read
import proofs.«124692_j26104811225508_1_alg».proof.Proof.Spec

noncomputable section

open scoped BigOperators

namespace Cert.RefValue

open Cert.ReferenceIdeal Cert.ReferenceIdeal.Read Idealize.ShloMosaic Idealize.ShloMosaic.ValueIdx Cert.Spec

/-- Where entry `(n, k)` of the flattened patch matrix sits in the stacked slices: image `n % 16`, position
    `(n / 4096, n / 16 % 256)`, slice `k`. -/
theorem stacked_idx (n : Fin 1048576) (k : Fin 9) :
    idx_main_v20 (idx_main_v21 (ix2 n k))
      = ix4 (⟨n.val % 16, by omega⟩ : Fin 16) (⟨n.val / 4096, by have := n.isLt; omega⟩ : Fin 256)
          (⟨n.val / 16 % 256, by omega⟩ : Fin 256) k := by
  have hn := n.isLt
  have hk := k.isLt
  funext a
  apply Fin.ext
  match a with
  | ⟨0, _⟩ => show (n.val * 9 + k.val) / 9 % 16 = n.val % 16; omega
  | ⟨1, _⟩ => show (n.val * 9 + k.val) / 36864 = n.val / 4096; omega
  | ⟨2, _⟩ => show (n.val * 9 + k.val) / 144 % 256 = n.val / 16 % 256; omega
  | ⟨3, _⟩ => show (n.val * 9 + k.val) % 9 = k.val; omega

/-- Entry `(n, k)` of the patch matrix is the image entry under tap `k` of patch row `n`. -/
theorem patch_apply (x0 : FVec Ideal S16x258x258 .f32) (n : Fin 1048576) (k : Fin 9) :
    val_main_v21 (F := Ideal) x0 (ix2 n k) = x0 (tap n k) := by
  rw [val_main_v21_apply, val_main_v20_apply, stacked_idx]
  unfold val_main_v19
  rw [concat9_apply]
  match k with
  | ⟨0, _⟩ =>
    show val_main_v10 (F := Ideal) x0 _ = _
    rw [val_main_v10_apply, val_main_v1_apply]
    exact congrArg x0 (funext fun a => Fin.ext (by
      match a with
      | ⟨0, _⟩ => rfl
      | ⟨1, _⟩ => show n.val / 4096 = n.val / 4096 + 0 / 3; omega
      | ⟨2, _⟩ => show n.val / 16 % 256 = n.val / 16 % 256 + 0 % 3; omega))
  | ⟨1, _⟩ =>
    show val_main_v11 (F := Ideal) x0 _ = _
    rw [val_main_v11_apply, val_main_v2_apply]
    exact congrArg x0 (funext fun a => Fin.ext (by
      match a with
      | ⟨0, _⟩ => rfl
      | ⟨1, _⟩ => show n.val / 4096 = n.val / 4096 + 1 / 3; omega
      | ⟨2, _⟩ => show 1 + n.val / 16 % 256 = n.val / 16 % 256 + 1 % 3; omega))
  | ⟨2, _⟩ =>
    show val_main_v12 (F := Ideal) x0 _ = _
    rw [val_main_v12_apply, val_main_v3_apply]
    exact congrArg x0 (funext fun a => Fin.ext (by
      match a with
      | ⟨0, _⟩ => rfl
      | ⟨1, _⟩ => show n.val / 4096 = n.val / 4096 + 2 / 3; omega
      | ⟨2, _⟩ => show 2 + n.val / 16 % 256 = n.val / 16 % 256 + 2 % 3; omega))
  | ⟨3, _⟩ =>
    show val_main_v13 (F := Ideal) x0 _ = _
    rw [val_main_v13_apply, val_main_v4_apply]
    exact congrArg x0 (funext fun a => Fin.ext (by
      match a with
      | ⟨0, _⟩ => rfl
      | ⟨1, _⟩ => show 1 + n.val / 4096 = n.val / 4096 + 3 / 3; omega
      | ⟨2, _⟩ => show n.val / 16 % 256 = n.val / 16 % 256 + 3 % 3; omega))
  | ⟨4, _⟩ =>
    show val_main_v14 (F := Ideal) x0 _ = _
    rw [val_main_v14_apply, val_main_v5_apply]
    exact congrArg x0 (funext fun a => Fin.ext (by
      match a with
      | ⟨0, _⟩ => rfl
      | ⟨1, _⟩ => show 1 + n.val / 4096 = n.val / 4096 + 4 / 3; omega
      | ⟨2, _⟩ => show 1 + n.val / 16 % 256 = n.val / 16 % 256 + 4 % 3; omega))
  | ⟨5, _⟩ =>
    show val_main_v15 (F := Ideal) x0 _ = _
    rw [val_main_v15_apply, val_main_v6_apply]
    exact congrArg x0 (funext fun a => Fin.ext (by
      match a with
      | ⟨0, _⟩ => rfl
      | ⟨1, _⟩ => show 1 + n.val / 4096 = n.val / 4096 + 5 / 3; omega
      | ⟨2, _⟩ => show 2 + n.val / 16 % 256 = n.val / 16 % 256 + 5 % 3; omega))
  | ⟨6, _⟩ =>
    show val_main_v16 (F := Ideal) x0 _ = _
    rw [val_main_v16_apply, val_main_v7_apply]
    exact congrArg x0 (funext fun a => Fin.ext (by
      match a with
      | ⟨0, _⟩ => rfl
      | ⟨1, _⟩ => show 2 + n.val / 4096 = n.val / 4096 + 6 / 3; omega
      | ⟨2, _⟩ => show n.val / 16 % 256 = n.val / 16 % 256 + 6 % 3; omega))
  | ⟨7, _⟩ =>
    show val_main_v17 (F := Ideal) x0 _ = _
    rw [val_main_v17_apply, val_main_v8_apply]
    exact congrArg x0 (funext fun a => Fin.ext (by
      match a with
      | ⟨0, _⟩ => rfl
      | ⟨1, _⟩ => show 2 + n.val / 4096 = n.val / 4096 + 7 / 3; omega
      | ⟨2, _⟩ => show 1 + n.val / 16 % 256 = n.val / 16 % 256 + 7 % 3; omega))
  | ⟨8, _⟩ =>
    show val_main_v18 (F := Ideal) x0 _ = _
    rw [val_main_v18_apply, val_main_v9_apply]
    exact congrArg x0 (funext fun a => Fin.ext (by
      match a with
      | ⟨0, _⟩ => rfl
      | ⟨1, _⟩ => show 2 + n.val / 4096 = n.val / 4096 + 8 / 3; omega
      | ⟨2, _⟩ => show 2 + n.val / 16 % 256 = n.val / 16 % 256 + 8 % 3; omega))

/-- The threshold broadcast over the rows reads the threshold vector at the column. -/
theorem thresh_apply (x2 : FVec Ideal S9x128 .f32) (n : Fin 1048576) (f : Fin 128) :
    val_main_v30 (F := Ideal) x2 (ix2 n f) = val_main_v25 (F := Ideal) x2 (ix1 f) := by
  rw [val_main_v30_apply, val_main_v29_apply]
  exact congrArg _ (funext fun a => Fin.ext (by match a with | ⟨0, _⟩ => rfl))

/-- The clamped rows are the specified ones, over the reshaped weights and the threshold vector. -/
theorem rows_apply (x0 : FVec Ideal S16x258x258 .f32) (x1 : FVec Ideal S128x1x3x3 .f32) (x2 : FVec Ideal S9x128 .f32)
    (n : Fin 1048576) (f : Fin 128) :
    val_main_v36 (F := Ideal) x0 x1 x2 (ix2 n f)
      = conv x0 (val_main_v0 (F := Ideal) x1) (val_main_v25 (F := Ideal) x2) n f := by
  rw [val_main_v36_apply, val_main_v35_apply, val_main_v33_apply, val_main_v31_apply, val_main_v28_apply,
    thresh_apply, val_main_v32_apply, val_main_cst_1_apply, val_main_v34_apply, val_main_cst_2_apply,
    val_main_call0_v1_apply, val_main_call0_v0_apply, val_main_cst_3_apply]
  simp only [Ideal.cmpf_def, Ideal.addf_def, Ideal.ofBits_def, add_zeroWord, select_lt_eq_min]
  unfold conv
  refine congrArg (fun s => min (s + _) one) (Finset.sum_congr rfl fun k _ => ?_)
  have el : lidx_main_v28 (ix2 n f) k = ix2 n k := funext fun a => Fin.ext (by
    match a with | ⟨0, _⟩ => rfl | ⟨1, _⟩ => rfl)
  have er : ridx_main_v28 (ix2 n f) k = ix2 k f := funext fun a => Fin.ext (by
    match a with | ⟨0, _⟩ => rfl | ⟨1, _⟩ => rfl)
  rw [el, er, val_main_v27_apply, val_main_v26_apply, val_main_cst_0_apply, patch_apply]
  simp only [Ideal.subf_def, Ideal.ofBits_def, sub_zeroWord]

/-- The reference's result array is the specified one. -/
theorem result_eq (x0 : FVec Ideal S16x258x258 .f32) (x1 : FVec Ideal S128x1x3x3 .f32) (x2 : FVec Ideal S9x128 .f32) :
    val_main_v37 (F := Ideal) x0 x1 x2
      = result x0 (val_main_v0 (F := Ideal) x1) (val_main_v25 (F := Ideal) x2) := by
  funext i
  have h0 : (i 0).val < 16 := (i 0).isLt
  have h1 : (i 1).val < 256 := (i 1).isLt
  have h2 : (i 2).val < 256 := (i 2).isLt
  have h3 : (i 3).val < 128 := (i 3).isLt
  have e : idx_main_v37 i = ix2 (rowOf i) (⟨(i 3).val, (i 3).isLt⟩ : Fin 128) := funext fun a => Fin.ext (by
    match a with
    | ⟨0, _⟩ => show ((((i 0).val * 256 + (i 1).val) * 256 + (i 2).val) * 128 + (i 3).val) / 128 = ((i 0).val * 256 + (i 1).val) * 256 + (i 2).val; omega
    | ⟨1, _⟩ => show ((((i 0).val * 256 + (i 1).val) * 256 + (i 2).val) * 128 + (i 3).val) % 128 = (i 3).val; omega)
  rw [val_main_v37_apply, e, rows_apply]
  rfl

end Cert.RefValue

end
-- ==== Proof.KernelPayload.lean ====
/-
  What the kernel body stores, read at one entry of its output block.

  From the loaded band of ten image rows the body cuts nine shifted `8 × 8 × 256` windows (tap `k` shifted by
  `(k / 3, k % 3)`), stacks them on a new last axis and flattens the three leading axes: row `(b·8 + r)·256 + q` of
  that matrix holds the nine taps at position `(r, q)` of image `b` of the band. The product with the weights, the
  threshold added, clamped at one, is then re-laid from `(b, r, q, f)` to `(r, q, b, f)`. On the extended reals the
  narrowing to bf16 is the identity and the product into a zero accumulator is the plain sum.
-/
import proofs.«124692_j26104811225508_1_alg».proof.Proof.Gen.KernelIdeal.Skeleton
import proofs.«124692_j26104811225508_1_alg».proof.Proof.Spec

set_option maxRecDepth 16384

noncomputable section

open scoped BigOperators

namespace Cert.KernelValue

open Cert.KernelIdeal Cert.KernelIdeal.Gen Idealize.ShloMosaic Idealize.ShloMosaic.ValueIdx Cert.Spec

/-! ## One shifted window with a unit axis added, read at `(b, r, q, 0)` -/

theorem window_apply (o1 o2 : Nat) (hs : S8x10x258.Slices ![0, o1, o2] S8x8x256) (hc : S8x8x256.ShapeCasts S8x8x256x1)
    (v3 : FVec Ideal S8x10x258 .f32) (bb r : Fin 8) (q : Fin 256) (h1 : r.val + o1 < 10) (h2 : q.val + o2 < 258) :
    shapeCast S8x8x256x1 (extractStridedSlice S8x8x256 ![0, o1, o2] v3 hs) hc (ix4 bb r q (0 : Fin 1))
      = v3 (ix3 bb (⟨r.val + o1, h1⟩ : Fin 10) (⟨q.val + o2, h2⟩ : Fin 258)) := by
  refine (shapeCast_apply _ hc (ix4 bb r q (0 : Fin 1)) (ix3 bb r q) ?_).trans ?_
  · rewrite [Shape.rowMajor_val_three, Shape.rowMajor_val_four]
    show (bb.val * 8 + r.val) * 256 + q.val = ((bb.val * 8 + r.val) * 256 + q.val) * 1 + 0
    omega
  · exact extractStridedSlice_apply ![0, o1, o2] v3 hs (ix3 bb r q) _ (fun a => match a with
      | ⟨0, _⟩ => by show bb.val = 0 + bb.val; omega
      | ⟨1, _⟩ => by show r.val + o1 = o1 + r.val; omega
      | ⟨2, _⟩ => by show q.val + o2 = o2 + q.val; omega)

/-! ## The product's operand indices -/

theorem lhs_dot_0 (i : S16384x128.Idx) (q : dot_S16384x9_S9x128_S16384x128_1_0_0_1_n_n.contr.Idx) :
    (dot_S16384x9_S9x128_S16384x128_1_0_0_1_n_n.lhsIdx i q 0).val = (i 0).val := by
  unfold DotDims.lhsIdx
  rw [dif_neg (show ¬(0 : Fin S16384x9.rank) ∈ dot_S16384x9_S9x128_S16384x128_1_0_0_1_n_n.lhsBatch by decide), dif_pos (show (0 : Fin S16384x9.rank) ∈ dot_S16384x9_S9x128_S16384x128_1_0_0_1_n_n.lhsNonContracting by decide)]
  rfl
theorem lhs_dot_1 (i : S16384x128.Idx) (q : dot_S16384x9_S9x128_S16384x128_1_0_0_1_n_n.contr.Idx) :
    (dot_S16384x9_S9x128_S16384x128_1_0_0_1_n_n.lhsIdx i q 1).val = (q ⟨0, by decide⟩).val :=
  dot_S16384x9_S9x128_S16384x128_1_0_0_1_n_n.lhsIdx_val_of_single rfl i q
theorem rhs_dot_0 (i : S16384x128.Idx) (q : dot_S16384x9_S9x128_S16384x128_1_0_0_1_n_n.contr.Idx) :
    (dot_S16384x9_S9x128_S16384x128_1_0_0_1_n_n.rhsIdx i q 0).val = (q ⟨0, by decide⟩).val :=
  dot_S16384x9_S9x128_S16384x128_1_0_0_1_n_n.rhsIdx_val_of_single rfl i q
theorem rhs_dot_1 (i : S16384x128.Idx) (q : dot_S16384x9_S9x128_S16384x128_1_0_0_1_n_n.contr.Idx) :
    (dot_S16384x9_S9x128_S16384x128_1_0_0_1_n_n.rhsIdx i q 1).val = (i 1).val := by
  unfold DotDims.rhsIdx
  rw [dif_neg (show ¬(1 : Fin S9x128.rank) ∈ dot_S16384x9_S9x128_S16384x128_1_0_0_1_n_n.rhsBatch by decide), dif_pos (show (1 : Fin S9x128.rank) ∈ dot_S16384x9_S9x128_S16384x128_1_0_0_1_n_n.rhsNonContracting by decide)]
  rfl

/-- The product into the zero accumulator, read at `(n, f)`: the nine products along row `n` and column `f`. -/
theorem product_apply (a : FVec Ideal S16384x9 .bf16) (w : FVec Ideal S9x128 .bf16) (n : Fin 16384) (f : Fin 128) :
    matmul dot_S16384x9_S9x128_S16384x128_1_0_0_1_n_n none a w (constant S16384x128 .f32 0x00000000#32) (ix2 n f)
      = ∑ k : Fin 9, a (ix2 n k) * w (ix2 k f) := by
  simp only [matmul]
  rw [Ideal.matmul_constant_zero_apply, ← Equiv.sum_comp (ValueIdx.contrEquiv1 dot_S16384x9_S9x128_S16384x128_1_0_0_1_n_n 9 rfl rfl).symm]
  refine Finset.sum_congr rfl fun k _ => ?_
  have hk := ValueIdx.contrEquiv1_symm_val dot_S16384x9_S9x128_S16384x128_1_0_0_1_n_n 9 rfl rfl k
  have el : dot_S16384x9_S9x128_S16384x128_1_0_0_1_n_n.lhsIdx (ix2 n f) ((ValueIdx.contrEquiv1 dot_S16384x9_S9x128_S16384x128_1_0_0_1_n_n 9 rfl rfl).symm k) = ix2 n k := funext fun b => Fin.ext (by
    match b with
    | ⟨0, _⟩ => exact lhs_dot_0 _ _
    | ⟨1, _⟩ => exact (lhs_dot_1 _ _).trans hk)
  have er : dot_S16384x9_S9x128_S16384x128_1_0_0_1_n_n.rhsIdx (ix2 n f) ((ValueIdx.contrEquiv1 dot_S16384x9_S9x128_S16384x128_1_0_0_1_n_n 9 rfl rfl).symm k) = ix2 k f := funext fun b => Fin.ext (by
    match b with
    | ⟨0, _⟩ => exact (rhs_dot_0 _ _).trans hk
    | ⟨1, _⟩ => exact rhs_dot_1 _ _)
  rw [el, er]

/-! ## The stored block at an entry -/

/-- The threshold row, viewed as a vector, then as `[1, 1, 1, 128]`, then spread over the block, reads the row at the column. -/
theorem spread_apply (v30 : FVec Ideal S1x128 .f32) (bb r : Fin 8) (q : Fin 256) (f : Fin 128) :
    broadcastTo S8x8x256x128 (shapeCast S1x1x1x128 (shapeCast S128 v30 Gen.shapeCasts_S1x128_S128) Gen.shapeCasts_S128_S1x1x1x128)
        Gen.broadcasts_S1x1x1x128_S8x8x256x128 (ix4 bb r q f)
      = v30 (ix2 (0 : Fin 1) f) := by
  refine (broadcastTo_apply _ Gen.broadcasts_S1x1x1x128_S8x8x256x128 (ix4 bb r q f)
    (ix4 (0 : Fin 1) (0 : Fin 1) (0 : Fin 1) f) (fun a => match a with
      | ⟨0, _⟩ => by show 0 = if (1 : Nat) = 1 then 0 else _; rw [if_pos rfl]
      | ⟨1, _⟩ => by show 0 = if (1 : Nat) = 1 then 0 else _; rw [if_pos rfl]
      | ⟨2, _⟩ => by show 0 = if (1 : Nat) = 1 then 0 else _; rw [if_pos rfl]
      | ⟨3, _⟩ => by show f.val = if (128 : Nat) = 1 then 0 else f.val; rw [if_neg (by decide)])).trans ?_
  refine (shapeCast_apply _ Gen.shapeCasts_S128_S1x1x1x128 (ix4 (0 : Fin 1) (0 : Fin 1) (0 : Fin 1) f) (ix1 f) ?_).trans ?_
  · rewrite [Shape.rowMajor_val_one, Shape.rowMajor_val_four]
    show f.val = ((0 * 1 + 0) * 1 + 0) * 128 + f.val
    omega
  · refine shapeCast_apply _ Gen.shapeCasts_S1x128_S128 (ix1 f) (ix2 (0 : Fin 1) f) ?_
    rewrite [Shape.rowMajor_val_two, Shape.rowMajor_val_one]
    show 0 * 128 + f.val = f.val
    omega

/-- Entry `(r, q, b, f)` of the stored block: the nine taps of the band at position `(r, q)` of image `b` against
    column `f` of the weights, plus the threshold, clamped at one. -/
theorem payload_apply (v3 : FVec Ideal S8x10x258 .f32) (v25 : FVec Ideal S9x128 .f32) (v30 : FVec Ideal S1x128 .f32)
    (r : Fin 8) (q : Fin 256) (bb : Fin 8) (f : Fin 128) :
    k0_pay1 (F := Ideal) v3 v25 v30 (ix4 r q bb f)
      = min ((∑ k : Fin 9, v3 (ix3 bb (⟨r.val + k.val / 3, by have := r.isLt; have := k.isLt; omega⟩ : Fin 10)
                (⟨q.val + k.val % 3, by have := q.isLt; omega⟩ : Fin 258)) * v25 (ix2 k f))
          + v30 (ix2 (0 : Fin 1) f)) one := by
  have hr := r.isLt
  have hq := q.isLt
  have hb := bb.isLt
  unfold k0_pay1
  refine (transpose_apply [1, 2, 0, 3] _ Gen.transposes_S8x8x256x128_p1_2_0_3_S8x256x8x128 (ix4 r q bb f) (ix4 bb r q f)
    (fun b => by match b with | ⟨0, _⟩ => rfl | ⟨1, _⟩ => rfl | ⟨2, _⟩ => rfl | ⟨3, _⟩ => rfl)).trans ?_
  show min (_ + _) _ = _
  refine congrArg₂ min (congrArg₂ (· + ·) ?_ (spread_apply v30 bb r q f)) rfl
  refine (shapeCast_apply _ Gen.shapeCasts_S16384x128_S8x8x256x128 (ix4 bb r q f)
    (ix2 (⟨(bb.val * 8 + r.val) * 256 + q.val, by omega⟩ : Fin 16384) f) ?_).trans ?_
  · rewrite [Shape.rowMajor_val_two, Shape.rowMajor_val_four]
    show ((bb.val * 8 + r.val) * 256 + q.val) * 128 + f.val = ((bb.val * 8 + r.val) * 256 + q.val) * 128 + f.val
    rfl
  refine (product_apply _ _ _ f).trans (Finset.sum_congr rfl fun k _ => congrArg₂ (· * ·) ?_ ?_)
  · -- the flattened stack of windows at row `(b·8 + r)·256 + q`, column `k`
    refine (truncf_apply _ Gen.bitsLt_bf16_f32 _).trans ?_
    refine (shapeCast_apply _ Gen.shapeCasts_S8x8x256x9_S16384x9 (ix2 _ k) (ix4 bb r q k) ?_).trans ?_
    · rewrite [Shape.rowMajor_val_four, Shape.rowMajor_val_two]
      show ((bb.val * 8 + r.val) * 256 + q.val) * 9 + k.val = ((bb.val * 8 + r.val) * 256 + q.val) * 9 + k.val
      rfl
    refine (concat9_apply _ _ _ _ _ _ _ _ _ _ bb r q k).trans ?_
    match k with
    | ⟨0, _⟩ =>
      show shapeCast S8x8x256x1 (extractStridedSlice S8x8x256 ![0, 0, 0] v3 Gen.slices_S8x10x258_o0_0_0_S8x8x256) Gen.shapeCasts_S8x8x256_S8x8x256x1 (ix4 bb r q (0 : Fin 1)) = _
      refine (window_apply 0 0 _ _ v3 bb r q (by omega) (by omega)).trans (congrArg v3 (funext fun d => Fin.ext ?_))
      match d with
      | ⟨0, _⟩ => rfl
      | ⟨1, _⟩ => show r.val + 0 = r.val + 0 / 3; omega
      | ⟨2, _⟩ => show q.val + 0 = q.val + 0 % 3; omega
    | ⟨1, _⟩ =>
      show shapeCast S8x8x256x1 (extractStridedSlice S8x8x256 ![0, 0, 1] v3 Gen.slices_S8x10x258_o0_0_1_S8x8x256) Gen.shapeCasts_S8x8x256_S8x8x256x1 (ix4 bb r q (0 : Fin 1)) = _
      refine (window_apply 0 1 _ _ v3 bb r q (by omega) (by omega)).trans (congrArg v3 (funext fun d => Fin.ext ?_))
      match d with
      | ⟨0, _⟩ => rfl
      | ⟨1, _⟩ => show r.val + 0 = r.val + 1 / 3; omega
      | ⟨2, _⟩ => show q.val + 1 = q.val + 1 % 3; omega
    | ⟨2, _⟩ =>
      show shapeCast S8x8x256x1 (extractStridedSlice S8x8x256 ![0, 0, 2] v3 Gen.slices_S8x10x258_o0_0_2_S8x8x256) Gen.shapeCasts_S8x8x256_S8x8x256x1 (ix4 bb r q (0 : Fin 1)) = _
      refine (window_apply 0 2 _ _ v3 bb r q (by omega) (by omega)).trans (congrArg v3 (funext fun d => Fin.ext ?_))
      match d with
      | ⟨0, _⟩ => rfl
      | ⟨1, _⟩ => show r.val + 0 = r.val + 2 / 3; omega
      | ⟨2, _⟩ => show q.val + 2 = q.val + 2 % 3; omega
    | ⟨3, _⟩ =>
      show shapeCast S8x8x256x1 (extractStridedSlice S8x8x256 ![0, 1, 0] v3 Gen.slices_S8x10x258_o0_1_0_S8x8x256) Gen.shapeCasts_S8x8x256_S8x8x256x1 (ix4 bb r q (0 : Fin 1)) = _
      refine (window_apply 1 0 _ _ v3 bb r q (by omega) (by omega)).trans (congrArg v3 (funext fun d => Fin.ext ?_))
      match d with
      | ⟨0, _⟩ => rfl
      | ⟨1, _⟩ => show r.val + 1 = r.val + 3 / 3; omega
      | ⟨2, _⟩ => show q.val + 0 = q.val + 3 % 3; omega
    | ⟨4, _⟩ =>
      show shapeCast S8x8x256x1 (extractStridedSlice S8x8x256 ![0, 1, 1] v3 Gen.slices_S8x10x258_o0_1_1_S8x8x256) Gen.shapeCasts_S8x8x256_S8x8x256x1 (ix4 bb r q (0 : Fin 1)) = _
      refine (window_apply 1 1 _ _ v3 bb r q (by omega) (by omega)).trans (congrArg v3 (funext fun d => Fin.ext ?_))
      match d with
      | ⟨0, _⟩ => rfl
      | ⟨1, _⟩ => show r.val + 1 = r.val + 4 / 3; omega
      | ⟨2, _⟩ => show q.val + 1 = q.val + 4 % 3; omega
    | ⟨5, _⟩ =>
      show shapeCast S8x8x256x1 (extractStridedSlice S8x8x256 ![0, 1, 2] v3 Gen.slices_S8x10x258_o0_1_2_S8x8x256) Gen.shapeCasts_S8x8x256_S8x8x256x1 (ix4 bb r q (0 : Fin 1)) = _
      refine (window_apply 1 2 _ _ v3 bb r q (by omega) (by omega)).trans (congrArg v3 (funext fun d => Fin.ext ?_))
      match d with
      | ⟨0, _⟩ => rfl
      | ⟨1, _⟩ => show r.val + 1 = r.val + 5 / 3; omega
      | ⟨2, _⟩ => show q.val + 2 = q.val + 5 % 3; omega
    | ⟨6, _⟩ =>
      show shapeCast S8x8x256x1 (extractStridedSlice S8x8x256 ![0, 2, 0] v3 Gen.slices_S8x10x258_o0_2_0_S8x8x256) Gen.shapeCasts_S8x8x256_S8x8x256x1 (ix4 bb r q (0 : Fin 1)) = _
      refine (window_apply 2 0 _ _ v3 bb r q (by omega) (by omega)).trans (congrArg v3 (funext fun d => Fin.ext ?_))
      match d with
      | ⟨0, _⟩ => rfl
      | ⟨1, _⟩ => show r.val + 2 = r.val + 6 / 3; omega
      | ⟨2, _⟩ => show q.val + 0 = q.val + 6 % 3; omega
    | ⟨7, _⟩ =>
      show shapeCast S8x8x256x1 (extractStridedSlice S8x8x256 ![0, 2, 1] v3 Gen.slices_S8x10x258_o0_2_1_S8x8x256) Gen.shapeCasts_S8x8x256_S8x8x256x1 (ix4 bb r q (0 : Fin 1)) = _
      refine (window_apply 2 1 _ _ v3 bb r q (by omega) (by omega)).trans (congrArg v3 (funext fun d => Fin.ext ?_))
      match d with
      | ⟨0, _⟩ => rfl
      | ⟨1, _⟩ => show r.val + 2 = r.val + 7 / 3; omega
      | ⟨2, _⟩ => show q.val + 1 = q.val + 7 % 3; omega
    | ⟨8, _⟩ =>
      show shapeCast S8x8x256x1 (extractStridedSlice S8x8x256 ![0, 2, 2] v3 Gen.slices_S8x10x258_o0_2_2_S8x8x256) Gen.shapeCasts_S8x8x256_S8x8x256x1 (ix4 bb r q (0 : Fin 1)) = _
      refine (window_apply 2 2 _ _ v3 bb r q (by omega) (by omega)).trans (congrArg v3 (funext fun d => Fin.ext ?_))
      match d with
      | ⟨0, _⟩ => rfl
      | ⟨1, _⟩ => show r.val + 2 = r.val + 8 / 3; omega
      | ⟨2, _⟩ => show q.val + 2 = q.val + 8 % 3; omega
  · -- the weights, re-cast to their own shape
    refine (truncf_apply _ Gen.bitsLt_bf16_f32 _).trans ?_
    rw [shapeCast_self]

end Cert.KernelValue

end
-- ==== Proof.KernelBlock.lean ====
/-
  The output array of the kernel region after the run.

  At grid point `t` the body is handed the block of eight images `8·c … 8·c + 7` (`c` the point's image-chunk
  coordinate), the whole weights and the whole threshold row; it loads the band of ten image rows starting at row
  `8·s` (`s` the point's strip coordinate) and stores one `8 × 256 × 8 × 128` block, which is written back as block
  `(s, 0, c, 0)` of the `256 × 256 × 16 × 128` output. Entry `(8·s + r, q, 8·c + b, f)` of the output is therefore
  the window of image `8·c + b` at position `(8·s + r, q)` against column `f` of the weights, plus the threshold,
  clamped at one. The 64 blocks tile the output, so the whole array is that function of the arrays the region finds.
-/
import proofs.«124692_j26104811225508_1_alg».proof.Proof.Gen.KernelIdeal.Frame
import proofs.«124692_j26104811225508_1_alg».proof.Proof.KernelPayload

set_option maxRecDepth 16384

noncomputable section

open scoped BigOperators

namespace Cert.KernelValue

open Cert.KernelIdeal Cert.KernelIdeal.Gen Idealize.ShloMosaic Idealize.ShloMosaic.TcCoe Idealize.ShloMosaic.Tactic
open Idealize.ShloMosaic.ValueIdx Cert.Spec
open Idealize.SL Idealize.SL.Sem
open Idealize.ShloMosaic.Pipeline (Dat)

/-! ## The specified output array of the region -/

/-- Entry `(i, j, b, f)` of the region's output: the window of image `b` at position `(i, j)` against column `f`,
    thresholded and clamped. The threshold comes as a one-row matrix. -/
def windows (img : FVec Ideal S16x258x258 .f32) (w : FVec Ideal S9x128 .f32) (th : FVec Ideal S1x128 .f32) :
    FVec Ideal S256x256x16x128 .f32 := fun i =>
  min ((∑ k : Fin 9, img (ix3 (i 2)
          (⟨(i 0).val + k.val / 3, by have h : (i 0).val < 256 := (i 0).isLt; have := k.isLt; omega⟩ : Fin 258)
          (⟨(i 1).val + k.val % 3, by have h : (i 1).val < 256 := (i 1).isLt; omega⟩ : Fin 258)) * w (ix2 k (i 3)))
      + th (ix2 (0 : Fin 1) (i 3))) one

/-! ## What the body leaves in its output block -/

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The one store of the body covers the block: what the block holds afterwards is the stored value, computed from the
    band loaded from the image block and from the weights and threshold blocks as they are. -/
theorem stored_block {F : FTy → Type} [FloatOps F] (c : Dev nD) (i : grid0.Coords) (arg2 : Memref sig .tc .vmem S8x258x258 .f32) (harg2 : arg2.IsWhole) (arg3 : Memref sig .tc .vmem S9x128 .f32) (harg3 : arg3.IsWhole) (arg4 : Memref sig .tc .vmem S1x128 .f32) (harg4 : arg4.IsWhole) (arg5 : Memref sig .tc .vmem S8x256x8x128 .f32) (harg5 : arg5.IsWhole)
    (x0 : Vec F S8x258x258 .f32) (x1 : Vec F S9x128 .f32) (x2 : Vec F S1x128 .f32) :
    out0_A_3 c i arg2 harg2 arg3 harg3 arg4 harg4 arg5 harg5 x0 x1 x2
      = k0_pay1 (F := F) (View.ld x0 (Rect.unit (s := S8x258x258) (k0_off1 i) S8x10x258.size (k0_off1_inb i))) x1 x2 := by
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero zeros4]
  simp only [View.readAt_eq_ld, harg2.read_unread, harg3.read_unread, harg4.read_unread, View.ld_unit_zero (S := S9x128) zeros2, View.ld_unit_zero (S := S1x128) zeros2]

/-! ## The grid -/

/-- At every point: the image block is the output block's image chunk; weights and threshold are block `(0, 0)`; the
    output block is `(s, 0, c, 0)` with `s < 32`, `c < 2`; the band starts at image row `8·s`. -/
theorem point_facts : ∀ t : Fin cfg0.N,
    win0_0.index t (0 : Fin 3) = win0_3.index t (2 : Fin 4) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 4) = 0 ∧ win0_3.index t (3 : Fin 4) = 0
    ∧ win0_3.index t (0 : Fin 4) < 32 ∧ win0_3.index t (2 : Fin 4) < 2
    ∧ k0_off1 (grid0.coords t) (0 : Fin 3) = 0 ∧ k0_off1 (grid0.coords t) (1 : Fin 3) = 8 * win0_3.index t (0 : Fin 4)
    ∧ k0_off1 (grid0.coords t) (2 : Fin 3) = 0 :=
  (by decide +kernel : ∀ t : Fin grid0.N, _)

/-- Every block `(s, 0, c, 0)` of the output is some point's. -/
theorem point_onto : ∀ (q0 : Fin 32) (q2 : Fin 2), ∃ t : Fin cfg0.N, win0_3.index t = ![q0.val, 0, q2.val, 0] :=
  (by decide +kernel : ∀ (q0 : Fin 32) (q2 : Fin 2), ∃ t : Fin grid0.N, win0_3.index t = ![q0.val, 0, q2.val, 0])

/-! ## The arrays the region finds, and the blocks the body is handed, at their literal types -/

variable (m : (ℓ : Loc nD τ sig) → Buf (Elt Ideal) ℓ)

abbrev imgArr (c : Dev nD) : FVec Ideal S16x258x258 .f32 := V m c main_arg0
abbrev wArr (c : Dev nD) : FVec Ideal S9x128 .f32 := V m c main_v0
abbrev thArr (c : Dev nD) : FVec Ideal S1x128 .f32 := V m c main_v5
abbrev imgBlk (c : Dev nD) (t : Fin cfg0.N) : FVec Ideal S8x258x258 .f32 := iblk m c 0 t
abbrev wBlk (c : Dev nD) (t : Fin cfg0.N) : FVec Ideal S9x128 .f32 := iblk m c 1 t
abbrev thBlk (c : Dev nD) (t : Fin cfg0.N) : FVec Ideal S1x128 .f32 := iblk m c 2 t

/-- The image block at point `t` holds images `8·c … 8·c + 7` whole. -/
theorem imgBlk_apply (c : Dev nD) (t : Fin cfg0.N) (y : S8x258x258.Idx) (i : S16x258x258.Idx)
    (h0 : (i 0).val = win0_3.index t (2 : Fin 4) * 8 + (y 0).val) (h1 : (i 1).val = (y 1).val) (h2 : (i 2).val = (y 2).val) :
    imgBlk m c t y = imgArr m c i := by
  obtain ⟨e0, e1, e2, -⟩ := point_facts t
  show V m c main_arg0 (((cfg0.win 0).blk t).view.emb y) = V m c main_arg0 i
  refine congrArg _ (funext fun a => Fin.ext ?_)
  match a with
  | ⟨0, _⟩ => show win0_0.index t (0 : Fin 3) * 8 + 1 * (y 0).val = (i 0).val; omega
  | ⟨1, _⟩ => show win0_0.index t (1 : Fin 3) * 258 + 1 * (y 1).val = (i 1).val; omega
  | ⟨2, _⟩ => show win0_0.index t (2 : Fin 3) * 258 + 1 * (y 2).val = (i 2).val; omega

/-- The weights block is the weights. -/
theorem wBlk_eq (c : Dev nD) (t : Fin cfg0.N) : wBlk m c t = wArr m c := by
  obtain ⟨-, -, -, e3, e4, -⟩ := point_facts t
  funext y
  show V m c main_v0 (((cfg0.win 1).blk t).view.emb y) = V m c main_v0 y
  refine congrArg _ (funext fun a => Fin.ext ?_)
  match a with
  | ⟨0, _⟩ => show win0_1.index t (0 : Fin 2) * 9 + 1 * (y 0).val = (y 0).val; omega
  | ⟨1, _⟩ => show win0_1.index t (1 : Fin 2) * 128 + 1 * (y 1).val = (y 1).val; omega

/-- The threshold block is the threshold row. -/
theorem thBlk_eq (c : Dev nD) (t : Fin cfg0.N) : thBlk m c t = thArr m c := by
  obtain ⟨-, -, -, -, -, e5, e6, -⟩ := point_facts t
  funext y
  show V m c main_v5 (((cfg0.win 2).blk t).view.emb y) = V m c main_v5 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-! ## One entry of the block stored at a point -/

/-- Entry `(r, q, b, f)` of the block stored at point `t` is the specified output at `(8·s + r, q, 8·c + b, f)`. -/
theorem stored_entry (c : Dev nD) (t : Fin cfg0.N) (r : Fin 8) (q : Fin 256) (bb : Fin 8) (f : Fin 128) (i : S256x256x16x128.Idx)
    (h0 : (i 0).val = win0_3.index t (0 : Fin 4) * 8 + r.val) (h1 : (i 1).val = q.val)
    (h2 : (i 2).val = win0_3.index t (2 : Fin 4) * 8 + bb.val) (h3 : (i 3).val = f.val) :
    k0_pay1 (F := Ideal) (View.ld (imgBlk m c t) (Rect.unit (s := S8x258x258) (k0_off1 (grid0.coords t)) S8x10x258.size (k0_off1_inb (grid0.coords t))))
        (wBlk m c t) (thBlk m c t) (ix4 r q bb f)
      = windows (imgArr m c) (wArr m c) (thArr m c) i := by
  obtain ⟨-, -, -, -, -, -, -, -, -, -, -, o0, o1, o2⟩ := point_facts t
  have e3 : (⟨f.val, f.isLt⟩ : Fin 128) = i 3 := Fin.ext h3.symm
  rw [payload_apply, wBlk_eq, thBlk_eq]
  unfold windows
  refine congrArg₂ min (congrArg₂ (· + ·) (Finset.sum_congr rfl fun k _ => congrArg₂ (· * ·) ?_ ?_) ?_) rfl
  · refine imgBlk_apply m c t _ _ ?_ ?_ ?_
    · show (i 2).val = win0_3.index t (2 : Fin 4) * 8 + (k0_off1 (grid0.coords t) (0 : Fin 3) + 1 * bb.val); omega
    · show (i 0).val + k.val / 3 = k0_off1 (grid0.coords t) (1 : Fin 3) + 1 * (r.val + k.val / 3); omega
    · show (i 1).val + k.val % 3 = k0_off1 (grid0.coords t) (2 : Fin 3) + 1 * (q.val + k.val % 3); omega
  · exact congrArg _ (funext fun a => by match a with | ⟨0, _⟩ => rfl | ⟨1, _⟩ => exact Fin.ext h3.symm)
  · exact congrArg _ (funext fun a => by match a with | ⟨0, _⟩ => rfl | ⟨1, _⟩ => exact Fin.ext h3.symm)

/-! ## What a point writes back, and the whole array -/

/-- The block stored at point `t`, entry by entry, is the specified output read through the point's block. -/
theorem stored_at (c : Dev nD) (t : Fin cfg0.N) (j : S8x256x8x128.Idx) :
    k0_pay1 (F := Ideal) (View.ld (imgBlk m c t) (Rect.unit (s := S8x258x258) (k0_off1 (grid0.coords t)) S8x10x258.size (k0_off1_inb (grid0.coords t))))
        (wBlk m c t) (thBlk m c t) j
      = windows (imgArr m c) (wArr m c) (thArr m c) (((cfg0.win 3).blk t).view.emb j) := by
  obtain ⟨-, -, -, -, -, -, -, e1, e3, -⟩ := point_facts t
  have hj1 : (j 1).val < 256 := (j 1).isLt
  have hj3 : (j 3).val < 128 := (j 3).isLt
  conv_lhs => rw [eq_ix4 j]
  refine stored_entry m c t (j 0) (j 1) (j 2) (j 3) _ ?_ ?_ ?_ ?_
  · show win0_3.index t (0 : Fin 4) * 8 + 1 * (j 0).val = win0_3.index t (0 : Fin 4) * 8 + (j 0).val; omega
  · show win0_3.index t (1 : Fin 4) * 256 + 1 * (j 1).val = (j 1).val; omega
  · show win0_3.index t (2 : Fin 4) * 8 + 1 * (j 2).val = win0_3.index t (2 : Fin 4) * 8 + (j 2).val; omega
  · show win0_3.index t (3 : Fin 4) * 128 + 1 * (j 3).val = (j 3).val; omega

/-- What point `t` writes back is its block of the specified output. -/
theorem written_back (c : Dev nD) (t : Fin cfg0.N) :
    (dats m 0 c).flushed 3 t
      = ((cfg0.win 3).blk t).view.read (Elt Ideal) (windows (imgArr m c) (wArr m c) (thArr m c)) := by
  show (cfg0.win 3).cut (grid0.coords t) ((dats m 0 c).after 3 t) = _
  rw [after0_3]
  unfold outsAt0
  rw [stored_block]
  funext j
  exact stored_at m c t j

/-- An index of the output is in point `t`'s block iff each coordinate is in the block's range on its axis. -/
theorem mem_block (t : Fin cfg0.N) (i : S256x256x16x128.Idx) :
    i ∈ ((cfg0.win 3).blk t).view.set ↔ ∀ a : Fin 4, win0_3.index t a * S8x256x8x128.size a ≤ (i a).val
      ∧ (i a).val < win0_3.index t a * S8x256x8x128.size a + S8x256x8x128.size a := by
  show i ∈ ((View.whole main_v6).slice (win0_3.rect t)).set ↔ _
  rw [View.set_slice_whole, Rect.mem_set_unit]
  exact Iff.rfl

/-- Every index of the output is in the block of the point with strip `i / 8` and image chunk `b / 8`. -/
theorem blocks_cover (i : S256x256x16x128.Idx) :
    ∃ t : Fin cfg0.N, (cfg0.win 3).flush t = true ∧ i ∈ ((cfg0.win 3).blk t).view.set := by
  have h0 : (i 0).val < 256 := (i 0).isLt
  have h1 : (i 1).val < 256 := (i 1).isLt
  have h2 : (i 2).val < 16 := (i 2).isLt
  have h3 : (i 3).val < 128 := (i 3).isLt
  obtain ⟨t, ht⟩ := point_onto ⟨(i 0).val / 8, by omega⟩ ⟨(i 2).val / 8, by omega⟩
  have q0 : win0_3.index t (0 : Fin 4) = (i 0).val / 8 := congrFun ht 0
  have q1 : win0_3.index t (1 : Fin 4) = 0 := congrFun ht 1
  have q2 : win0_3.index t (2 : Fin 4) = (i 2).val / 8 := congrFun ht 2
  have q3 : win0_3.index t (3 : Fin 4) = 0 := congrFun ht 3
  refine ⟨t, flush0_3 t, ?_⟩
  rw [mem_block]
  intro a
  match a with
  | ⟨0, _⟩ => show win0_3.index t (0 : Fin 4) * 8 ≤ (i 0).val ∧ (i 0).val < win0_3.index t (0 : Fin 4) * 8 + 8; omega
  | ⟨1, _⟩ => show win0_3.index t (1 : Fin 4) * 256 ≤ (i 1).val ∧ (i 1).val < win0_3.index t (1 : Fin 4) * 256 + 256; omega
  | ⟨2, _⟩ => show win0_3.index t (2 : Fin 4) * 8 ≤ (i 2).val ∧ (i 2).val < win0_3.index t (2 : Fin 4) * 8 + 8; omega
  | ⟨3, _⟩ => show win0_3.index t (3 : Fin 4) * 128 ≤ (i 3).val ∧ (i 3).val < win0_3.index t (3 : Fin 4) * 128 + 128; omega

/-- The output array after the run is the specified one, of the arrays as the region finds them. -/
theorem output_array (c : Dev nD) :
    (dats m 0 c).arrAt 3 cfg0.N = windows (imgArr m c) (wArr m c) (thArr m c) :=
  (dats m 0 c).arrAt_eq_of_cover 3 (windows (imgArr m c) (wArr m c) (thArr m c))
    (fun t _ => written_back m c t) (blocks_cover)

end Cert.KernelValue

end
-- ==== Proof.KernelValue.lean ====
/-
  The kernel program's run, with its result named.

  Before the region the host reshapes the `128 × 1 × 3 × 3` kernel argument to the `9 × 128` weights and forms the
  threshold `1 − D[0, ·]` as a one-row matrix; after it, it reads the `256 × 256 × 16 × 128` output row-major as
  `16 × 256 × 256 × 128`. Entry `(i, j, b, f)` of the region's output is row `(i·256 + j)·16 + b` of the patch
  product, so the re-read array is the specified result.
-/
import proofs.«124692_j26104811225508_1_alg».proof.Proof.KernelBlock
import Idealize.ShloMosaic.Lib.StableHlo.Run

set_option maxRecDepth 16384

noncomputable section

open scoped BigOperators

namespace Cert.KernelValue

open Cert.KernelIdeal Cert.KernelIdeal.Gen Idealize.ShloMosaic Idealize.ShloMosaic.TcCoe Idealize.ShloMosaic.Tactic
open Idealize.ShloMosaic.ValueIdx Cert.Spec
open Idealize.SL Idealize.SL.Sem
open Idealize.ShloMosaic.Pipeline (Dat)

/-- The threshold vector: one minus row 0 of the third argument. -/
def thVec (x2 : FVec Ideal S9x128 .f32) : FVec Ideal S128 .f32 :=
  subf (broadcastInDim S128 ![] Gen.bcast_S_S128 (constant (F := Ideal) S_ .f32 0x3F800000#32))
    (shapeCast S128 (extractStridedSlice S1x128 ![0, 0] x2 Gen.slices_S9x128_S1x128_0_0) Gen.shapeCasts_S1x128_S128)

/-- The region's output re-read row-major is the specified result (the threshold given as a vector, handed to the region
    as a one-row matrix). -/
theorem reread_windows (img : FVec Ideal S16x258x258 .f32) (w : FVec Ideal S9x128 .f32) (th : FVec Ideal S128 .f32) :
    shapeCast S16x256x256x128 (windows img w (shapeCast S1x128 th Gen.shapeCasts_S128_S1x128)) Gen.shapeCasts_S256x256x16x128_S16x256x256x128
      = result img w th := by
  funext a
  have h0 : (a 0).val < 16 := (a 0).isLt
  have h1 : (a 1).val < 256 := (a 1).isLt
  have h2 : (a 2).val < 256 := (a 2).isLt
  have h3 : (a 3).val < 128 := (a 3).isLt
  have hn : (rowOf a).val = ((a 0).val * 256 + (a 1).val) * 256 + (a 2).val := rfl
  refine (shapeCast_apply _ Gen.shapeCasts_S256x256x16x128_S16x256x256x128 a
    (ix4 (⟨(rowOf a).val / 4096, by omega⟩ : Fin 256) (⟨(rowOf a).val / 16 % 256, by omega⟩ : Fin 256)
      (⟨(rowOf a).val % 16, by omega⟩ : Fin 16) (⟨(a 3).val, h3⟩ : Fin 128)) ?_).trans ?_
  · rewrite [Shape.rowMajor_val_four, Shape.rowMajor_val_four]
    show (((rowOf a).val / 4096 * 256 + (rowOf a).val / 16 % 256) * 16 + (rowOf a).val % 16) * 128 + (a 3).val
      = (((a 0).val * 256 + (a 1).val) * 256 + (a 2).val) * 128 + (a 3).val
    omega
  · unfold windows result conv
    refine congrArg₂ min (congrArg₂ (· + ·) (Finset.sum_congr rfl fun k _ => rfl) ?_) rfl
    refine shapeCast_apply _ Gen.shapeCasts_S128_S1x128 (ix2 (0 : Fin 1) (⟨(a 3).val, h3⟩ : Fin 128)) (ix1 (⟨(a 3).val, h3⟩ : Fin 128)) ?_
    rewrite [Shape.rowMajor_val_one, Shape.rowMajor_val_two]
    show (a 3).val = 0 * 128 + (a 3).val
    omega

variable (m : (ℓ : Loc nD τ sig) → Buf (Elt Ideal) ℓ) (ρ : Dev nD → PrngReg)

/-- No host operation before the region writes the image stack: the region finds it as launched. -/
theorem imgArr_eq (c : Dev nD) : imgArr m c = m ((c : Thread nD τ).loc main_arg0) := V_main_arg0 m c

/-- The weights the region finds are the kernel argument reshaped. -/
theorem wArr_eq (c : Dev nD) :
    wArr m c = shapeCast S9x128 (m ((c : Thread nD τ).loc main_arg1)) Gen.shapeCasts_S128x1x3x3_S9x128 := by
  show StableHlo.after hostOps0 (fun b => m (c, b)) (Proc.devRef .tc main_v0) = _
  after_results
  rfl

/-- The threshold row the region finds is the threshold vector as a one-row matrix. -/
theorem thArr_eq (c : Dev nD) :
    thArr m c = shapeCast S1x128 (thVec (m ((c : Thread nD τ).loc main_arg2))) Gen.shapeCasts_S128_S1x128 := by
  show StableHlo.after hostOps0 (fun b => m (c, b)) (Proc.devRef .tc main_v5) = _
  after_results
  rfl

/-- The returned array after the host's last reshape: the specified result of the arguments. -/
theorem returned (c : Dev nD) :
    Pipeline.afterTail₀ cfgs (dats m) 0 (V0 m) [hostOps1] c main_v7
      = result (m ((c : Thread nD τ).loc main_arg0))
          (shapeCast S9x128 (m ((c : Thread nD τ).loc main_arg1)) Gen.shapeCasts_S128x1x3x3_S9x128)
          (thVec (m ((c : Thread nD τ).loc main_arg2))) := by
  unfold Pipeline.afterTail₀
  show StableHlo.after hostOps1 _ (Proc.devRef .tc main_v7) = _
  after_results
  rw [(Pipeline.withArrays_arr spec0 launch0.win.arr_inj c _ _ 3).trans (output_array m c)]
  show shapeCast S16x256x256x128 (windows (imgArr m c) (wArr m c) (thArr m c)) _ = _
  rw [wArr_eq, thArr_eq, imgArr_eq]
  exact reread_windows _ _ _

/-- Every weakly fair execution of the kernel program ends with the returned array at the specified result of the
    arguments, and the arguments unchanged. -/
theorem result_run : θ_run defs (onTc (τ := τ) (main (F := Ideal))) ⟨m, fun _ => 0, ρ⟩ (fun r => ∀ c : Dev nD,
      r.2.mem ((c : Thread nD τ).loc main_v7)
        = result (m ((c : Thread nD τ).loc main_arg0))
            (shapeCast S9x128 (m ((c : Thread nD τ).loc main_arg1)) Gen.shapeCasts_S128x1x3x3_S9x128)
            (thVec (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
    ⟨((h c).2 main_v7 (Pipeline.mem_restRefs_of main_v7 (by decide) (by decide))).trans (returned m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelValue

end
-- ==== Proof.lean ====
/-
  A 3 × 3 valid convolution of sixteen 258 × 258 images with 128 filters, thresholded and clamped above at one, returned
  in the layout a row-major re-reading of the (position, image) rows gives.

  Both programs compute, for patch row `n` (position `(n / 4096, n / 16 % 256)` of image `n % 16`) and filter `f`,
  `min (∑ₖ img[n % 16, n / 4096 + k / 3, n / 16 % 256 + k % 3] · W[k, f] + (1 − D[0, f])) 1` with `W` the kernel
  argument re-read as `9 × 128`, and return the `1048576 × 128` rows read as `16 × 256 × 256 × 128` (Proof/Spec.lean).
  The reference builds the whole patch matrix on the host, subtracts and adds a zero, and clamps by compare-and-select
  (Proof/RefValue.lean, over the generated run and its read-at-an-index lemmas). The kernel computes eight output rows
  of eight images per grid point from a band of ten image rows, narrows both factors to bf16 (the identity on the
  extended reals), clamps by a minimum and stores the block already in (row, column, image, filter) order
  (Proof/KernelPayload.lean, Proof/KernelBlock.lean, Proof/KernelValue.lean, over the generated frame). No law beyond
  `x − 0 = x`, `x + 0 = x` and "select on `<` is the minimum" joins the two sides, so the precondition is not opened.
-/
import proofs.«124692_j26104811225508_1_alg».proof.Defs
import proofs.«124692_j26104811225508_1_alg».proof.Proof.Gen.Kernel
import proofs.«124692_j26104811225508_1_alg».proof.Proof.Gen.Kernel.Skeleton
import proofs.«124692_j26104811225508_1_alg».proof.Proof.Gen.Kernel.Launch
import proofs.«124692_j26104811225508_1_alg».proof.Proof.Gen.Kernel.Points
import proofs.«124692_j26104811225508_1_alg».proof.Proof.Gen.Kernel.Frame
import proofs.«124692_j26104811225508_1_alg».proof.Proof.Gen.KernelIdeal
import proofs.«124692_j26104811225508_1_alg».proof.Proof.Gen.KernelIdeal.Skeleton
import proofs.«124692_j26104811225508_1_alg».proof.Proof.Gen.KernelIdeal.Launch
import proofs.«124692_j26104811225508_1_alg».proof.Proof.Gen.KernelIdeal.Points
import proofs.«124692_j26104811225508_1_alg».proof.Proof.Gen.KernelIdeal.Frame
import proofs.«124692_j26104811225508_1_alg».proof.Proof.Gen.ReferenceIdeal
import proofs.«124692_j26104811225508_1_alg».proof.Proof.Gen.ReferenceIdeal.Read
import proofs.«124692_j26104811225508_1_alg».proof.Proof.Gen.Pre_finite_inputs
import proofs.«124692_j26104811225508_1_alg».proof.Proof.RefValue
import proofs.«124692_j26104811225508_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end at the one specified array of arguments that agree: the reference's reshaped kernel argument and
    threshold vector are, operation for operation, the kernel program's. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelValue.result_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.RefValue.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
